-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S100000x1 : Shape := ⟨2, ![100000, 1]⟩
abbrev S65x64 : Shape := ⟨2, ![65, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x64 .f32) (main_arg9 : FVec F S64x1 .f32) (main_arg10 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S65x64 .f32) (main_arg6 : FVec F S64x64 .f32) (main_arg7 : FVec F S64 .f32) (main_arg8 : FVec F S64x64 .f32) (main_arg9 : FVec F S64x1 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S65x64 .f32 := Host.absf main_arg5
  let main_cst_6 : FVec F S_ .f32 := constant S_ .f32 0x7F800000#32
  let main_v20 : FVec F S65x64 .f32 := broadcastInDim S65x64 ![] bcast_S_S65x64 main_cst_6
  let main_v21 : IVec S65x64 1 := cmpf .olt main_v19 main_v20
  let main_c_7 : IVec S_ 1 := constantI S_ 1 1#1
  let main_v22 : IVec S_ 1 := (fun x v => Host.reduce IntOp.andi x v reducesTo_S65x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x3200000 32) (main_arg2 : FVec F S100000x1 .f32) (main_arg3 : FVec F S65x64 .f32) (main_arg4 : FVec F S64 .f32) (main_arg5 : FVec F S65x64 .f32) (main_arg6 : FVec F S64x64 .f32) (main_arg7 : FVec F S64 .f32) (main_arg8 : FVec F S64x64 .f32) (main_arg9 : FVec F S64x1 .f32) (main_arg10 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg2
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S65x64 .f32 := Host.absf main_arg3
  let main_cst_2 : FVec F S_ .f32 := constant S_ .f32 0x7F800000#32
  let main_v10 : FVec F S65x64 .f32 := broadcastInDim S65x64 ![] bcast_S_S65x64 main_cst_2
  let main_v11 : IVec S65x64 1 := cmpf .olt main_v9 main_v10
  let main_c_3 : IVec S_ 1 := constantI S_ 1 1#1
  let main_v12 : IVec S_ 1 := (fun x v => Host.reduce IntOp.andi x v reducesTo_S65x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x3200000 : Shape := ⟨2, ![2, 3200000]⟩
abbrev S100000x1 : Shape := ⟨2, ![100000, 1]⟩
abbrev S65x64 : Shape := ⟨2, ![65, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x65 : Shape := ⟨2, ![100000, 65]⟩
abbrev S3200000x65 : Shape := ⟨2, ![3200000, 65]⟩
abbrev S1x64 : Shape := ⟨2, ![1, 64]⟩
abbrev S5000x65 : Shape := ⟨2, ![5000, 65]⟩
abbrev S5000x64 : Shape := ⟨2, ![5000, 64]⟩
abbrev S3200000x64 : Shape := ⟨2, ![3200000, 64]⟩
abbrev S1x1 : Shape := ⟨2, ![1, 1]⟩
abbrev S5000x1 : Shape := ⟨2, ![5000, 1]⟩

abbrev nBuf : Space → Nat
  | .hbm => 64
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S100000x1, .f32⟩
  | .hbm, ⟨3, _⟩ => ⟨S65x64, .f32⟩
  | .hbm, ⟨4, _⟩ => ⟨S64, .f32⟩
  | .hbm, ⟨5, _⟩ => ⟨S65x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x65, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x65, .f32⟩
  | .hbm, ⟨38, _⟩ => ⟨S_, .f32⟩
  | .hbm, ⟨39, _⟩ => ⟨S100000x65, .f32⟩
  | .hbm, ⟨40, _⟩ => ⟨S3200000x1, .i32⟩
  | .hbm, ⟨41, _⟩ => ⟨S100000x65, .f32⟩
  | .hbm, ⟨42, _⟩ => ⟨S100000x65, .f32⟩
  | .hbm, ⟨43, _⟩ => ⟨S100000x65, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000x64, .f32⟩
  | .hbm, ⟨55, _⟩ => ⟨S_, .f32⟩
  | .hbm, ⟨56, _⟩ => ⟨S100000x64, .f32⟩
  | .hbm, ⟨57, _⟩ => ⟨S3200000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S1x1, .f32⟩
  | .hbm, ⟨63, _⟩ => ⟨S100000x1, .f32⟩
  | .local _ .vmem, ⟨0, _⟩ => ⟨S5000x65, .f32⟩
  | .local _ .vmem, ⟨1, _⟩ => ⟨S5000x65, .f32⟩
  | .local _ .vmem, ⟨2, _⟩ => ⟨S5000x65, .f32⟩
  | .local _ .vmem, ⟨3, _⟩ => ⟨S5000x65, .f32⟩
  | .local _ .vmem, ⟨4, _⟩ => ⟨S65x64, .f32⟩
  | .local _ .vmem, ⟨5, _⟩ => ⟨S1x64, .f32⟩
  | .local _ .vmem, ⟨6, _⟩ => ⟨S65x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  concatenates_S100000x64_S100000x1_S100000x65_d1 : Shape.Concatenates [S100000x64, S100000x1] S100000x65 1
  bcast_S_S100000x65 : S_.BroadcastsInDim S100000x65 (![] : Fin 0 → Fin S100000x65.rank)
  bcast_S100000x1_S100000x65_0_1 : S100000x1.BroadcastsInDim S100000x65 (![0, 1] : Fin 2 → Fin S100000x65.rank)
  shapeCasts_S64_S1x64 : S64.ShapeCasts S1x64
  inb_S5000x65_S5000x65_0_0 : ∀ a, (![0, 0] : Fin 2 → Nat) a + S5000x65.size a ≤ S5000x65.size a
  h_S5000x65 : 0 < S5000x65.numel
  shapeCasts_S5000x65_S5000x65 : S5000x65.ShapeCasts S5000x65
  bitsLt_bf16_f32 : FTy.bits .bf16 < FTy.bits .f32
  inb_S65x64_S65x64_0_0 : ∀ a, (![0, 0] : Fin 2 → Nat) a + S65x64.size a ≤ S65x64.size a
  h_S65x64 : 0 < S65x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S1_S1x1 : S1.ShapeCasts S1x1
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S3200000x1_S3200000_n_0_0_1_wf : ScatterDims.WF S100000 S3200000x1 S3200000 [] [0] [0] 1
  gather_S100000x65_S3200000x1_S3200000x65_1_0_n_n_0_1_165_wf : GatherDims.WF S100000x65 S3200000x1 S3200000x65 [1] [0] [] [0] [] 1 ![1, 65]
  scatter_S100000x65_S3200000x1_S3200000x65_1_0_0_1_wf : ScatterDims.WF S100000x65 S3200000x1 S3200000x65 [1] [0] [0] 1
  dot_S5000x65_S65x64_S5000x64_1_0_0_1_n_n_wf : DotDims.WF S5000x65 S65x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x65.size a ≤ S100000x65.size a
  hwx0_0 : ∀ i : grid0.Coords, EltTy.bits .f32 = 32 ∨ (Rect.block (s := S100000x65) S5000x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x65.size a ≤ S100000x65.size a
  hwx0_1 : ∀ i : grid0.Coords, EltTy.bits .f32 = 32 ∨ (Rect.block (s := S100000x65) S5000x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x64.size a ≤ S65x64.size a
  hwx0_2 : ∀ i : grid0.Coords, EltTy.bits .f32 = 32 ∨ (Rect.block (s := S65x64) S65x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x64.size a ≤ S65x64.size a
  hwx0_4 : ∀ i : grid0.Coords, EltTy.bits .f32 = 32 ∨ (Rect.block (s := S65x64) S65x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x65_S3200000x1_S3200000x65_1_0_n_n_0_1_165 : GatherDims S100000x65 S3200000x1 S3200000x65 where
  offsetDims := [1]
  collapsedSliceDims := [0]
  operandBatchingDims := []
  startIndicesBatchingDims := []
  startIndexMap := [0]
  indexVectorDim := 1
  sliceSizes := ![1, 65]
  wf := gather_S100000x65_S3200000x1_S3200000x65_1_0_n_n_0_1_165_wf
def scatter_S100000x65_S3200000x1_S3200000x65_1_0_0_1 : ScatterDims S100000x65 S3200000x1 S3200000x65 where
  updateWindowDims := [1]
  insertedWindowDims := [0]
  scatterDimsToOperandDims := [0]
  indexVectorDim := 1
  wf := scatter_S100000x65_S3200000x1_S3200000x65_1_0_0_1_wf
def dot_S5000x65_S65x64_S5000x64_1_0_0_1_n_n : DotDims S5000x65 S65x64 S5000x64 where
  lhsContracting := [1]
  rhsContracting := [0]
  lhsNonContracting := [0]
  rhsNonContracting := [1]
  lhsBatch := []
  rhsBatch := []
  wf := dot_S5000x65_S65x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v25) S5000x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S65x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S65x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S100000x1 : Shape := ⟨2, ![100000, 1]⟩
abbrev S65x64 : Shape := ⟨2, ![65, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x65 : Shape := ⟨2, ![100000, 65]⟩
abbrev S_ : Shape := ⟨0, ![]⟩
abbrev S3200000x1 : Shape := ⟨2, ![3200000, 1]⟩
abbrev S3200000x65 : Shape := ⟨2, ![3200000, 65]⟩
abbrev S100000 : Shape := ⟨1, ![100000]⟩
abbrev S1x64 : Shape := ⟨2, ![1, 64]⟩
abbrev S3200000x64 : Shape := ⟨2, ![3200000, 64]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S100000x1, .f32⟩
  | .hbm, ⟨3, _⟩ => ⟨S65x64, .f32⟩
  | .hbm, ⟨4, _⟩ => ⟨S64, .f32⟩
  | .hbm, ⟨5, _⟩ => ⟨S65x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S100000x65, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x65, .f32⟩
  | .hbm, ⟨25, _⟩ => ⟨S_, .f32⟩
  | .hbm, ⟨26, _⟩ => ⟨S100000x65, .f32⟩
  | .hbm, ⟨27, _⟩ => ⟨S3200000x1, .i32⟩
  | .hbm, ⟨28, _⟩ => ⟨S100000x65, .f32⟩
  | .hbm, ⟨29, _⟩ => ⟨S_, .f32⟩
  | .hbm, ⟨30, _⟩ => ⟨S3200000, .f32⟩
  | .hbm, ⟨31, _⟩ => ⟨S_, .f32⟩
  | .hbm, ⟨32, _⟩ => ⟨S100000, .f32⟩
  | .hbm, ⟨33, _⟩ => ⟨S3200000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x65, .f32⟩
  | .hbm, ⟨40, _⟩ => ⟨S100000x65, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x64, .f32⟩
  | .hbm, ⟨59, _⟩ => ⟨S_, .f32⟩
  | .hbm, ⟨60, _⟩ => ⟨S100000x64, .f32⟩
  | .hbm, ⟨61, _⟩ => ⟨S3200000x1, .i32⟩
  | .hbm, ⟨62, _⟩ => ⟨S100000x64, .f32⟩
  | .hbm, ⟨63, _⟩ => ⟨S_, .f32⟩
  | .hbm, ⟨64, _⟩ => ⟨S3200000, .f32⟩
  | .hbm, ⟨65, _⟩ => ⟨S_, .f32⟩
  | .hbm, ⟨66, _⟩ => ⟨S100000, .f32⟩
  | .hbm, ⟨67, _⟩ => ⟨S3200000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S100000x64_S100000x1_S100000x65_d1 : Shape.Concatenates [S100000x64, S100000x1] S100000x65 1
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x65 : S_.BroadcastsInDim S100000x65 (![] : Fin 0 → Fin S100000x65.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x65_0_1 : S100000x1.BroadcastsInDim S100000x65 (![0, 1] : Fin 2 → Fin S100000x65.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x65_S3200000x1_S3200000x65_1_0_n_n_0_1_165_wf : GatherDims.WF S100000x65 S3200000x1 S3200000x65 [1] [0] [] [0] [] 1 ![1, 65]
  scatter_S100000x65_S3200000x1_S3200000x65_1_0_0_1_wf : ScatterDims.WF S100000x65 S3200000x1 S3200000x65 [1] [0] [0] 1
  scatter_S100000_S3200000x1_S3200000_n_0_0_1_wf : ScatterDims.WF S100000 S3200000x1 S3200000 [] [0] [0] 1
  dot_S100000x65_S65x64_S100000x64_1_0_0_1_n_n_wf : DotDims.WF S100000x65 S65x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x65_S3200000x1_S3200000x65_1_0_n_n_0_1_165 : GatherDims S100000x65 S3200000x1 S3200000x65 where
  offsetDims := [1]
  collapsedSliceDims := [0]
  operandBatchingDims := []
  startIndicesBatchingDims := []
  startIndexMap := [0]
  indexVectorDim := 1
  sliceSizes := ![1, 65]
  wf := gather_S100000x65_S3200000x1_S3200000x65_1_0_n_n_0_1_165_wf
def scatter_S100000x65_S3200000x1_S3200000x65_1_0_0_1 : ScatterDims S100000x65 S3200000x1 S3200000x65 where
  updateWindowDims := [1]
  insertedWindowDims := [0]
  scatterDimsToOperandDims := [0]
  indexVectorDim := 1
  wf := scatter_S100000x65_S3200000x1_S3200000x65_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x65_S65x64_S100000x64_1_0_0_1_n_n : DotDims S100000x65 S65x64 S100000x64 where
  lhsContracting := [1]
  rhsContracting := [0]
  lhsNonContracting := [0]
  rhsNonContracting := [1]
  lhsBatch := []
  rhsBatch := []
  wf := dot_S100000x65_S65x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibDense.lean ====
/-
  Dense layers over the extended reals, index by index.

  A matrix is a function of a rank-2 index into the extended reals. `mm A B` is the textbook product: entry (a, b) is
  the sum over the shared coordinate c of A (a, c) · B (c, b). `biasRelu z A β` adds the entry β c to every row of A at
  column c and takes the larger of the result and z (the rectifier when z is zero). `plusScalar X s` adds one number to
  every entry. `rowBlock R t A` is the block of R consecutive rows of A that starts at row t · R, all columns kept.

  Facts proved here:
  * the kernel's matrix product into a zero accumulator and the host's plain dot_general are both `mm`, at the exact
    arithmetic of the extended reals (the sum over the contracted coordinate written over its range of numbers);
  * each of the three layers acts row by row, so it commutes with taking a block of rows: a layer of a row block is the
    row block of the layer. That is what lets a product computed block of rows by block of rows be read as ONE product;
  * every row of a matrix of M rows lies in exactly the block t = row / R when R divides the rows evenly.
-/
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.Dense

open Idealize.ShloMosaic Idealize.ShloMosaic.ValueIdx

/-- A matrix of extended reals with `m` rows and `n` columns. -/
abbrev Mat (m n : Nat) := FVec Ideal ⟨2, ![m, n]⟩ .f32

variable {m k n : Nat}

/-- The product of an m×k and a k×n matrix: entry (a, b) is ∑_c A (a, c) · B (c, b). -/
def mm (A : Mat m k) (B : Mat k n) : Mat m n :=
  fun i => ∑ c : Fin k, A (ix2 (i 0 : Fin m) c) * B (ix2 c (i 1 : Fin n))

theorem mm_apply (A : Mat m k) (B : Mat k n) (a : Fin m) (b : Fin n) :
    mm A B (ix2 a b) = ∑ c : Fin k, A (ix2 a c) * B (ix2 c b) := rfl

/-- Row a of A, shifted by β along the columns, then bounded below by z. -/
def biasRelu (z : Ideal .f32) (A : Mat m k) (β : Fin k → Ideal .f32) : Mat m k :=
  fun j => max (A j + β (j 1 : Fin k)) z

/-- One number added to every entry. -/
def plusScalar (X : Mat m n) (s : Ideal .f32) : Mat m n := fun i => X i + s

/-- The host's plain dot_general is the product, entry by entry. -/
theorem dotGeneral_plain_eq_mm {φ₁ φ₂ : FTy} (prec : Option ContractPrecision)
    (A : FVec Ideal ⟨2, ![m, k]⟩ φ₁) (B : FVec Ideal ⟨2, ![k, n]⟩ φ₂) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The kernel's plain matrix product accumulated into zeros is the product, entry by entry. -/
theorem matmul_plain_zero_eq_mm {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32) = mm A B :=
  (matmul_zero_eq_dotGeneral _ _ _ _).trans (dotGeneral_plain_eq_mm _ _ _)

/-! ## The kernel's spellings of the layers -/

/-- A one-row matrix laid along every row, read at an entry: the row's entry in that column. -/
theorem broadcastTo_oneRow_apply {α : Type} (x : (⟨2, ![1, n]⟩ : Shape).Idx → α)
    (hb : (⟨2, ![1, n]⟩ : Shape).Broadcasts ⟨2, ![m, n]⟩) (j : (⟨2, ![m, n]⟩ : Shape).Idx) :
    broadcastTo ⟨2, ![m, n]⟩ x hb j = x (ix2 (0 : Fin 1) (j 1 : Fin n)) := by
  refine broadcastTo_apply x hb j (ix2 (0 : Fin 1) (j 1 : Fin n)) ?_
  intro a
  match a with
  | ⟨0, _⟩ => rfl
  | ⟨1, _⟩ =>
    show (j 1).val = if n = 1 then 0 else (j 1).val
    split
    · have := (j 1).isLt; have e : (j 1).val < n := this; omega
    · rfl

/-- A vector of `n` entries reshaped to one row, read at an entry: the vector's entry of that column. -/
theorem shapeCast_row_apply {α : Type} (x : (⟨1, ![n]⟩ : Shape).Idx → α)
    (h : (⟨1, ![n]⟩ : Shape).ShapeCasts ⟨2, ![1, n]⟩) (b : Fin n) :
    shapeCast ⟨2, ![1, n]⟩ x h (ix2 (0 : Fin 1) b) = x (ix1 b) :=
  shapeCast_apply x h (ix2 (0 : Fin 1) b) (ix1 b) (by
    rw [Shape.rowMajor_val_one, Shape.rowMajor_val_two]
    show b.val = 0 * n + b.val
    omega)

/-- A block plus a one-row bias laid along its rows, bounded below by the splat of one word, is `biasRelu`. -/
theorem biasRelu_of_broadcast (A : Mat m k) (v : FVec Ideal ⟨2, ![1, k]⟩ .f32)
    (hb : (⟨2, ![1, k]⟩ : Shape).Broadcasts ⟨2, ![m, k]⟩) (z : BitVec 32) :
    maximumf (addf A (broadcastTo ⟨2, ![m, k]⟩ v hb)) (broadcast ⟨2, ![m, k]⟩ (Scalar.ofBits (F := Ideal) .f32 z))
      = biasRelu (Ideal.ofBits .f32 z) A (fun c => v (ix2 (0 : Fin 1) c)) := by
  funext j
  show max (A j + broadcastTo ⟨2, ![m, k]⟩ v hb j) _ = max (A j + v (ix2 (0 : Fin 1) (j 1 : Fin k))) _
  rw [broadcastTo_oneRow_apply]
  rfl

/-- A one-column block plus the splat of a one-entry matrix along its rows is `plusScalar`. -/
theorem plusScalar_of_broadcast (X : Mat m 1) (v : FVec Ideal ⟨2, ![1, 1]⟩ .f32)
    (hb : (⟨2, ![1, 1]⟩ : Shape).Broadcasts ⟨2, ![m, 1]⟩) :
    addf X (broadcastTo ⟨2, ![m, 1]⟩ v hb) = plusScalar X (v (ix2 (0 : Fin 1) (0 : Fin 1))) := by
  funext j
  show X j + broadcastTo ⟨2, ![m, 1]⟩ v hb j = X j + v (ix2 (0 : Fin 1) (0 : Fin 1))
  rw [broadcastTo_oneRow_apply]
  have e : (j 1 : Fin 1) = (0 : Fin 1) :=
    Fin.ext (by have := (j 1).isLt; have e' : (j 1).val < 1 := this; show (j 1).val = 0; omega)
  rw [e]

/-! ## Blocks of rows -/

/-- Rows t·R … t·R + R − 1 of a matrix of M rows (they exist: `h`), every column. -/
def rowBlock {M : Nat} (R t : Nat) (h : t * R + R ≤ M) (A : Mat M k) : Mat R k :=
  fun y => A (ix2 (⟨t * R + (y 0).val, by have := (y 0).isLt; have e : (y 0).val < R := this; omega⟩ : Fin M) (y 1 : Fin k))

variable {M : Nat} (R t : Nat) (h : t * R + R ≤ M)

/-- The product acts row by row: the product of a block of rows is that block of rows of the product. -/
theorem mm_rowBlock (A : Mat M k) (B : Mat k n) : mm (rowBlock R t h A) B = rowBlock R t h (mm A B) := rfl

theorem biasRelu_rowBlock (z : Ideal .f32) (A : Mat M k) (β : Fin k → Ideal .f32) :
    biasRelu z (rowBlock R t h A) β = rowBlock R t h (biasRelu z A β) := rfl

theorem plusScalar_rowBlock (X : Mat M n) (s : Ideal .f32) :
    plusScalar (rowBlock R t h X) s = rowBlock R t h (plusScalar X s) := rfl

end Cert.Dense

end
-- ==== Proof.Sage.lean ====
/-
  One mean-aggregating graph layer and the read-out, over the extended reals, index by index.

  `layer z mean h Wl Wr β` is the matrix whose entry (a, b) is the larger of z and
  (∑_c mean (a, c) · Wl (c, b)) + (∑_c h (a, c) · Wr (c, b)) + β b: the neighbourhood mean through one weight matrix, the
  node's own features through another, a bias along the columns, and a rectifier when z is zero.
  `readout X w s` is X times a one-column matrix w, plus the number s on every entry.

  Both act row by row: the layer (or read-out) of a block of consecutive rows is that block of rows of the layer
  (read-out) of the whole matrices. That is what lets a result computed block of rows by block of rows be read as one
  whole-array function.

  The scaling law used to meet the two programs: for a divisor d that is at least the number one, multiplying by the
  quotient 1 / d is dividing by d. It needs no finiteness: d is never zero, and for an infinite d both sides are
  x · 0.
-/
import proofs.«150396_j11914239279498_1_alg».proof.Proof.LibDense
import Idealize.ShloMosaic.Lib.IdealHost

noncomputable section

namespace Cert.Sage

open Idealize.ShloMosaic Idealize.ShloMosaic.ValueIdx Cert.Dense

variable {M k n : Nat}

/-- Entry (a, b): max z ((∑_c mean (a, c) · Wl (c, b)) + (∑_c h (a, c) · Wr (c, b)) + β b). -/
def layer (z : Ideal .f32) (mean h : Mat M k) (Wl Wr : Mat k n) (β : Fin n → Ideal .f32) : Mat M n :=
  biasRelu z (fun j => mm mean Wl j + mm h Wr j) β

/-- Entry (a, 0): (∑_c X (a, c) · w (c, 0)) + s. -/
def readout (X : Mat M k) (w : Mat k 1) (s : Ideal .f32) : Mat M 1 := plusScalar (mm X w) s

variable (R t : Nat) (hR : t * R + R ≤ M)

/-- The layer of a block of rows is that block of rows of the layer. -/
theorem layer_rowBlock (z : Ideal .f32) (mean h : Mat M k) (Wl Wr : Mat k n) (β : Fin n → Ideal .f32) :
    layer z (rowBlock R t hR mean) (rowBlock R t hR h) Wl Wr β = rowBlock R t hR (layer z mean h Wl Wr β) := rfl

/-- The read-out of a block of rows is that block of rows of the read-out. -/
theorem readout_rowBlock (X : Mat M k) (w : Mat k 1) (s : Ideal .f32) :
    readout (rowBlock R t hR X) w s = rowBlock R t hR (readout X w s) := rfl

/-- The word 0x3F800000 is the number one. -/
theorem one_word : Ideal.ofBits .f32 0x3F800000#32 = 1 := by
  simp [Ideal.ofBits, Ideal.ieee]
  rw [← EReal.coe_mul]
  norm_num

/-- Multiplying by 1 / max x 1 is dividing by max x 1: the divisor is at least one, so it is not zero. -/
theorem mul_inv_max_one (a x : EReal) : a * Ideal.div 1 (max x 1) = Ideal.div a (max x 1) :=
  Ideal.mul_one_div (ne_of_gt (lt_of_lt_of_le zero_lt_one (le_max_right x 1)))

end Cert.Sage

end
-- ==== Proof.HostLayers.lean ====
/-
  The host's spelling of the layer, of the read-out and of the two degree scalings, read as the whole-array functions.

  On the host a bias vector of n entries is laid along the rows of an M×n matrix in two steps (to one row, then to
  every row), the rectifier's bound is the splat of one word, and a plain dot_general is the textbook product. The
  host adds the bias BEFORE the second product where the kernel adds it after: over the extended reals addition is
  commutative and associative without exception, so the two orders agree entry by entry.

  The degree scaling: one program multiplies every row a of the neighbourhood sums by 1 / max (deg a) 1, the other
  divides it by max (deg a) 1. The divisor is at least one, hence not zero, and then the two are the same extended
  real.
-/
import proofs.«150396_j11914239279498_1_alg».proof.Proof.Sage
import Idealize.ShloMosaic.Lib.KernelVsHost
import Idealize.ShloMosaic.Lib.IdealHost
import Idealize.ShloMosaic.Lib.Pipeline.Value

noncomputable section

namespace Cert.Sage.Host

open Idealize.ShloMosaic Idealize.ShloMosaic.ValueIdx Cert.Dense Cert.Sage

variable {M k n : Nat}

/-! ## Host broadcasts read at an entry -/

/-- A vector of `n` entries laid as the one row of a 1×n matrix, read at (0, b): the vector's entry b. -/
theorem broadcastInDim_toRow_apply {α : Type} (x : (⟨1, ![n]⟩ : Shape).Idx → α)
    (hb : (⟨1, ![n]⟩ : Shape).BroadcastsInDim ⟨2, ![1, n]⟩ ![1]) (b : Fin n) :
    broadcastInDim ⟨2, ![1, n]⟩ ![1] hb x (ix2 (0 : Fin 1) b) = x (ix1 b) := by
  refine broadcastInDim_apply ![1] hb x (ix2 (0 : Fin 1) b) (ix1 b) ?_
  intro a
  match a with
  | ⟨0, _⟩ =>
    show b.val = if n = 1 then 0 else b.val
    split
    · have := b.isLt; omega
    · rfl

/-- A vector laid as one row and that row laid along every row of an M×n matrix, read at an entry: the vector's
    entry of that column. -/
theorem broadcastInDim_rows_apply {α : Type} (x : (⟨1, ![n]⟩ : Shape).Idx → α)
    (hb1 : (⟨1, ![n]⟩ : Shape).BroadcastsInDim ⟨2, ![1, n]⟩ ![1])
    (hb2 : (⟨2, ![1, n]⟩ : Shape).BroadcastsInDim ⟨2, ![M, n]⟩ ![0, 1]) (a : Fin M) (b : Fin n) :
    broadcastInDim ⟨2, ![M, n]⟩ ![0, 1] hb2 (broadcastInDim ⟨2, ![1, n]⟩ ![1] hb1 x) (ix2 a b) = x (ix1 b) := by
  rw [broadcastInDim_oneRow_apply, broadcastInDim_toRow_apply]

/-- A vector of `M` entries laid as the one column of an M×1 matrix, read at (a, 0): the vector's entry a. -/
theorem broadcastInDim_toCol_apply {α : Type} (x : (⟨1, ![M]⟩ : Shape).Idx → α)
    (hb : (⟨1, ![M]⟩ : Shape).BroadcastsInDim ⟨2, ![M, 1]⟩ ![0]) (a : Fin M) :
    broadcastInDim ⟨2, ![M, 1]⟩ ![0] hb x (ix2 a (0 : Fin 1)) = x (ix1 a) := by
  refine broadcastInDim_apply ![0] hb x (ix2 a (0 : Fin 1)) (ix1 a) ?_
  intro c
  match c with
  | ⟨0, _⟩ =>
    show a.val = if M = 1 then 0 else a.val
    split
    · have := a.isLt; omega
    · rfl

/-- A one-column matrix laid along every column of an M×k matrix, read at (a, c): the column's entry (a, 0). -/
theorem broadcastInDim_oneCol_apply {α : Type} (y : (⟨2, ![M, 1]⟩ : Shape).Idx → α)
    (hb : (⟨2, ![M, 1]⟩ : Shape).BroadcastsInDim ⟨2, ![M, k]⟩ ![0, 1]) (a : Fin M) (c : Fin k) :
    broadcastInDim ⟨2, ![M, k]⟩ ![0, 1] hb y (ix2 a c) = y (ix2 a (0 : Fin 1)) := by
  refine broadcastInDim_apply ![0, 1] hb y (ix2 a c) (ix2 a (0 : Fin 1)) ?_
  intro d
  match d with
  | ⟨0, _⟩ =>
    show a.val = if M = 1 then 0 else a.val
    split
    · have := a.isLt; omega
    · rfl
  | ⟨1, _⟩ =>
    show (0 : ℕ) = if (1 : ℕ) = 1 then 0 else c.val
    rw [if_pos rfl]

/-- A vector of `M` entries laid as one column and that column laid along every column of an M×k matrix, read at an
    entry: the vector's entry of that row. -/
theorem broadcastInDim_cols_apply {α : Type} (x : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, k]⟩ ![0, 1]) (a : Fin M) (c : Fin k) :
    broadcastInDim ⟨2, ![M, k]⟩ ![0, 1] h2 (broadcastInDim ⟨2, ![M, 1]⟩ ![0] h1 x) (ix2 a c) = x (ix1 a) := by
  rw [broadcastInDim_oneCol_apply, broadcastInDim_toCol_apply]

/-! ## The three host spellings -/

/-- The host's layer: (mean · Wl + bias laid along the rows) + h · Wr, bounded below by the splat of the word z. -/
theorem layer_eq (mean h : Mat M k) (Wl Wr : Mat k n) (bl : FVec Ideal ⟨1, ![n]⟩ .f32) (z : BitVec 32)
    (hb1 : (⟨1, ![n]⟩ : Shape).BroadcastsInDim ⟨2, ![1, n]⟩ ![1])
    (hb2 : (⟨2, ![1, n]⟩ : Shape).BroadcastsInDim ⟨2, ![M, n]⟩ ![0, 1])
    (hb0 : (⟨0, ![]⟩ : Shape).BroadcastsInDim ⟨2, ![M, n]⟩ ![]) :
    maximumf (addf (addf (Host.dotGeneral (DotDims.plain M k n) none mean Wl)
        (broadcastInDim ⟨2, ![M, n]⟩ ![0, 1] hb2 (broadcastInDim ⟨2, ![1, n]⟩ ![1] hb1 bl)))
        (Host.dotGeneral (DotDims.plain M k n) none h Wr))
      (broadcastInDim ⟨2, ![M, n]⟩ ![] hb0 (constant (F := Ideal) ⟨0, ![]⟩ .f32 z))
      = layer (Ideal.ofBits .f32 z) mean h Wl Wr (fun b => bl (ix1 b)) := by
  rw [dotGeneral_plain_eq_mm, dotGeneral_plain_eq_mm]
  funext j
  obtain ⟨a, b, rfl⟩ : ∃ (a : Fin M) (b : Fin n), j = ix2 a b := ⟨j 0, j 1, eq_ix2 j⟩
  show max ((mm mean Wl (ix2 a b)
        + broadcastInDim ⟨2, ![M, n]⟩ ![0, 1] hb2 (broadcastInDim ⟨2, ![1, n]⟩ ![1] hb1 bl) (ix2 a b))
        + mm h Wr (ix2 a b))
      (broadcastInDim ⟨2, ![M, n]⟩ ![] hb0 (constant (F := Ideal) ⟨0, ![]⟩ .f32 z) (ix2 a b))
    = max ((mm mean Wl (ix2 a b) + mm h Wr (ix2 a b)) + bl (ix1 b)) (Ideal.ofBits .f32 z)
  rw [broadcastInDim_rows_apply, broadcastInDim_scalar_apply, add_right_comm]
  rfl

/-- The host's read-out: X · w plus the one-entry bias laid on every entry. -/
theorem readout_eq (X : Mat M k) (w : Mat k 1) (b : FVec Ideal ⟨1, ![1]⟩ .f32)
    (hb1 : (⟨1, ![1]⟩ : Shape).BroadcastsInDim ⟨2, ![1, 1]⟩ ![1])
    (hb2 : (⟨2, ![1, 1]⟩ : Shape).BroadcastsInDim ⟨2, ![M, 1]⟩ ![0, 1]) :
    addf (Host.dotGeneral (DotDims.plain M k 1) none X w)
        (broadcastInDim ⟨2, ![M, 1]⟩ ![0, 1] hb2 (broadcastInDim ⟨2, ![1, 1]⟩ ![1] hb1 b))
      = readout X w (b (ix1 (0 : Fin 1))) := by
  rw [dotGeneral_plain_eq_mm]
  funext j
  obtain ⟨a, c, rfl⟩ : ∃ (a : Fin M) (c : Fin 1), j = ix2 a c := ⟨j 0, j 1, eq_ix2 j⟩
  show mm X w (ix2 a c) + broadcastInDim ⟨2, ![M, 1]⟩ ![0, 1] hb2 (broadcastInDim ⟨2, ![1, 1]⟩ ![1] hb1 b) (ix2 a c)
    = mm X w (ix2 a c) + b (ix1 (0 : Fin 1))
  rw [broadcastInDim_rows_apply, Subsingleton.elim c (0 : Fin 1)]

/-- Multiplying each row a of s by 1 / max (deg a) 1 is dividing it by max (deg a) 1 (the words 0x3F800000 are ones). -/
theorem scale_eq (s : Mat M k) (deg : FVec Ideal ⟨1, ![M]⟩ .f32)
    (h0 h0' h0'' : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, k]⟩ ![0, 1]) :
    mulf s (broadcastInDim ⟨2, ![M, k]⟩ ![0, 1] h2 (broadcastInDim ⟨2, ![M, 1]⟩ ![0] h1
        (Host.divf (broadcastInDim ⟨1, ![M]⟩ ![] h0 (constant (F := Ideal) ⟨0, ![]⟩ .f32 0x3F800000#32))
          (maximumf deg (broadcastInDim ⟨1, ![M]⟩ ![] h0' (constant (F := Ideal) ⟨0, ![]⟩ .f32 0x3F800000#32))))))
      = Host.divf s (broadcastInDim ⟨2, ![M, k]⟩ ![0, 1] h2 (broadcastInDim ⟨2, ![M, 1]⟩ ![0] h1
          (maximumf deg (broadcastInDim ⟨1, ![M]⟩ ![] h0'' (constant (F := Ideal) ⟨0, ![]⟩ .f32 0x3F800000#32))))) := by
  funext i
  obtain ⟨a, c, rfl⟩ : ∃ (a : Fin M) (c : Fin k), i = ix2 a c := ⟨i 0, i 1, eq_ix2 i⟩
  show s (ix2 a c) * broadcastInDim ⟨2, ![M, k]⟩ ![0, 1] h2 (broadcastInDim ⟨2, ![M, 1]⟩ ![0] h1
        (Host.divf (broadcastInDim ⟨1, ![M]⟩ ![] h0 (constant (F := Ideal) ⟨0, ![]⟩ .f32 0x3F800000#32))
          (maximumf deg (broadcastInDim ⟨1, ![M]⟩ ![] h0' (constant (F := Ideal) ⟨0, ![]⟩ .f32 0x3F800000#32)))))
        (ix2 a c)
    = Ideal.div (s (ix2 a c)) (broadcastInDim ⟨2, ![M, k]⟩ ![0, 1] h2 (broadcastInDim ⟨2, ![M, 1]⟩ ![0] h1
          (maximumf deg (broadcastInDim ⟨1, ![M]⟩ ![] h0'' (constant (F := Ideal) ⟨0, ![]⟩ .f32 0x3F800000#32))))
        (ix2 a c))
  rw [broadcastInDim_cols_apply, broadcastInDim_cols_apply]
  show s (ix2 a c) * Ideal.div (broadcastInDim ⟨1, ![M]⟩ ![] h0 (constant (F := Ideal) ⟨0, ![]⟩ .f32 0x3F800000#32) (ix1 a))
        (max (deg (ix1 a))
          (broadcastInDim ⟨1, ![M]⟩ ![] h0' (constant (F := Ideal) ⟨0, ![]⟩ .f32 0x3F800000#32) (ix1 a)))
    = Ideal.div (s (ix2 a c)) (max (deg (ix1 a))
          (broadcastInDim ⟨1, ![M]⟩ ![] h0'' (constant (F := Ideal) ⟨0, ![]⟩ .f32 0x3F800000#32) (ix1 a)))
  simp only [broadcastInDim_scalar_apply]
  show s (ix2 a c) * Ideal.div (Ideal.ofBits .f32 0x3F800000#32) (max (deg (ix1 a)) (Ideal.ofBits .f32 0x3F800000#32))
    = Ideal.div (s (ix2 a c)) (max (deg (ix1 a)) (Ideal.ofBits .f32 0x3F800000#32))
  rw [one_word]
  exact mul_inv_max_one _ _

end Cert.Sage.Host

end
-- ==== Proof.KRegion0.lean ====
/-
  The first layer's region as one whole-array function.
-/
import proofs.«150396_j11914239279498_1_alg».proof.Proof.Gen.KernelIdeal.Frame
import proofs.«150396_j11914239279498_1_alg».proof.Proof.Sage
import Idealize.ShloMosaic.Lib.Pipeline.Value

set_option maxRecDepth 16384

noncomputable section

namespace Cert.Sage.K0

open Cert.KernelIdeal Cert.KernelIdeal.Gen Idealize.ShloMosaic Idealize.ShloMosaic.TcCoe Idealize.SL.Sem
open Idealize.ShloMosaic.ValueIdx Cert.Dense Cert.Sage
open Idealize.ShloMosaic.Pipeline (Dat)

variable (V : (c : Dev nD) → (b : Ref sig .tc) → Buf (Elt Ideal) ((c : Thread nD τ).loc b))

/-- The word of the rectifier's lower bound. -/
abbrev z0 : Ideal .f32 := Ideal.ofBits .f32 0x00000000#32

/-! ## The body's arithmetic is the layer -/

/-- The value the body stores, from the five blocks it loads, is the layer of those blocks: the two rounding steps to the
    narrower format are the identity over the extended reals, each matrix product into zeros is the textbook product, and
    the bias row laid along the rows then the lower bound by the splat of the zero word is the shifted rectifier. -/
theorem pay_eq_layer (x0 x1 : Mat 5000 65) (x2 x4 : Mat 65 64) (x3 : Mat 1 64) :
    k0_pay1 (F := Ideal) x0 x1 x2 x4 x3 = layer z0 x0 x1 x2 x4 (fun b => x3 (ix2 (0 : Fin 1) b)) := by
  unfold k0_pay1
  simp only [shapeCast_self]
  have hd : dot_S5000x65_S65x64_S5000x64_1_0_0_1_n_n = DotDims.plain 5000 65 64 := rfl
  rw [hd]
  have m0 : matmul (F := Ideal) (DotDims.plain 5000 65 64) none (truncf .bf16 x0 bitsLt_bf16_f32) (truncf .bf16 x2 bitsLt_bf16_f32)
      (constant S5000x64 .f32 0x00000000#32) = mm x0 x2 :=
    matmul_plain_zero_eq_mm none (truncf .bf16 x0 bitsLt_bf16_f32) (truncf .bf16 x2 bitsLt_bf16_f32)
  have m1 : matmul (F := Ideal) (DotDims.plain 5000 65 64) none (truncf .bf16 x1 bitsLt_bf16_f32) (truncf .bf16 x4 bitsLt_bf16_f32)
      (constant S5000x64 .f32 0x00000000#32) = mm x1 x4 :=
    matmul_plain_zero_eq_mm none (truncf .bf16 x1 bitsLt_bf16_f32) (truncf .bf16 x4 bitsLt_bf16_f32)
  rw [m0, m1]
  exact biasRelu_of_broadcast (fun j => mm x0 x2 j + mm x1 x4 j) x3 broadcasts_S1x64_S5000x64 0x00000000#32

/-- So when the two row-tiled blocks are blocks of rows of two arrays, the stored value is that block of rows of the
    layer of the arrays: the layer acts row by row. -/
theorem pay_eq_rowBlock (x0 x1 : Mat 5000 65) (x2 x4 : Mat 65 64) (x3 : Mat 1 64) (A0 A1 : Mat 100000 65) (W2 W4 : Mat 65 64)
    (B : Mat 1 64) (r : Nat) (h : r * 5000 + 5000 ≤ 100000) (h0 : x0 = rowBlock 5000 r h A0) (h1 : x1 = rowBlock 5000 r h A1)
    (h2 : x2 = W2) (h4 : x4 = W4) (h3 : x3 = B) :
    k0_pay1 (F := Ideal) x0 x1 x2 x4 x3 = rowBlock 5000 r h (layer z0 A0 A1 W2 W4 (fun b => B (ix2 (0 : Fin 1) b))) := by
  subst h0 h1 h2 h4 h3
  rw [pay_eq_layer]
  rfl

/-! ## The windows' blocks as blocks of rows -/

/-- The printed index maps over the twenty grid points: the row-tiled windows (the two inputs of 100000 rows and the
    output) sit at block row t, column block 0; the weights and the bias are whole, at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of 5000 rows lies inside the 100000 rows. -/
theorem rows_le (t : Fin cfg0.N) : t.val * 5000 + 5000 ≤ 100000 := by
  have h : t.val < 20 := t.isLt
  omega

/-- Window 0's block at point t is rows 5000 t … 5000 t + 4999 of the scaled neighbourhood sums. -/
theorem blk0 (c : Dev nD) (t : Fin cfg0.N) :
    (iblk0 V c 0 t : Mat 5000 65) = rowBlock 5000 t.val (rows_le t) (V c main_v25 : Mat 100000 65) := by
  obtain ⟨e0, e1, -⟩ := idx_facts t
  funext y
  show V c main_v25 (((cfg0.win 0).blk t).view.emb y) = V c main_v25 _
  refine congrArg _ ?_
  funext a; apply Fin.ext
  match a with
  | ⟨0, _⟩ => show win0_0.index t (0 : Fin 2) * 5000 + 1 * (y 0).val = t.val * 5000 + (y 0).val; omega
  | ⟨1, _⟩ => show win0_0.index t (1 : Fin 2) * 65 + 1 * (y 1).val = (y 1).val; omega

/-- Window 1's block at point t is the same rows of the node features. -/
theorem blk1 (c : Dev nD) (t : Fin cfg0.N) :
    (iblk0 V c 1 t : Mat 5000 65) = rowBlock 5000 t.val (rows_le t) (V c main_v13 : Mat 100000 65) := by
  obtain ⟨-, -, e0, e1, -⟩ := idx_facts t
  funext y
  show V c main_v13 (((cfg0.win 1).blk t).view.emb y) = V c main_v13 _
  refine congrArg _ ?_
  funext a; apply Fin.ext
  match a with
  | ⟨0, _⟩ => show win0_1.index t (0 : Fin 2) * 5000 + 1 * (y 0).val = t.val * 5000 + (y 0).val; omega
  | ⟨1, _⟩ => show win0_1.index t (1 : Fin 2) * 65 + 1 * (y 1).val = (y 1).val; omega

/-- Window 2's block at every point is the whole first weight matrix. -/
theorem blk2 (c : Dev nD) (t : Fin cfg0.N) : (iblk0 V c 2 t : Mat 65 64) = (V c main_arg3 : Mat 65 64) := by
  obtain ⟨-, -, -, -, e0, e1, -⟩ := idx_facts t
  funext y
  show V c main_arg3 (((cfg0.win 2).blk t).view.emb y) = V c main_arg3 y
  refine congrArg _ ?_
  funext a; apply Fin.ext
  match a with
  | ⟨0, _⟩ => show win0_2.index t (0 : Fin 2) * 65 + 1 * (y 0).val = (y 0).val; omega
  | ⟨1, _⟩ => show win0_2.index t (1 : Fin 2) * 64 + 1 * (y 1).val = (y 1).val; omega

/-- Window 3's block at every point is the whole one-row bias. -/
theorem blk3 (c : Dev nD) (t : Fin cfg0.N) : (iblk0 V c 3 t : Mat 1 64) = (V c main_v26 : Mat 1 64) := by
  obtain ⟨-, -, -, -, -, -, e0, e1, -⟩ := idx_facts t
  funext y
  show V c main_v26 (((cfg0.win 3).blk t).view.emb y) = V c main_v26 y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's block at every point is the whole second weight matrix. -/
theorem blk4 (c : Dev nD) (t : Fin cfg0.N) : (iblk0 V c 4 t : Mat 65 64) = (V c main_arg5 : Mat 65 64) := by
  obtain ⟨-, -, -, -, -, -, -, -, e0, e1, -⟩ := idx_facts t
  funext y
  show V c main_arg5 (((cfg0.win 4).blk t).view.emb y) = V c main_arg5 y
  refine congrArg _ ?_
  funext a; apply Fin.ext
  match a with
  | ⟨0, _⟩ => show win0_4.index t (0 : Fin 2) * 65 + 1 * (y 0).val = (y 0).val; omega
  | ⟨1, _⟩ => show win0_4.index t (1 : Fin 2) * 64 + 1 * (y 1).val = (y 1).val; omega

/-! ## What a point writes back, and the whole array -/

/-- The layer of the arrays the region is entered with. -/
abbrev G (c : Dev nD) : Mat 100000 64 :=
  layer z0 (V c main_v25 : Mat 100000 65) (V c main_v13 : Mat 100000 65) (V c main_arg3 : Mat 65 64) (V c main_arg5 : Mat 65 64)
    (fun b => (V c main_v26 : Mat 1 64) (ix2 (0 : Fin 1) b))

theorem off_zero : (![0, 0] : Fin 2 → Nat) = fun _ => 0 := funext fun a => by fin_cases a <;> rfl

/-- What point t writes back is block t of the layer of the entry arrays. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero off_zero]
  simp only [View.ld_unit_zero (S := S5000x65) off_zero, View.ld_unit_zero (S := S65x64) off_zero, View.ld_unit_zero (S := S1x64) off_zero]
  rw [pay_eq_rowBlock _ _ _ _ _ _ _ _ _ _ t.val (rows_le t) (blk0 V c t) (blk1 V c t) (blk2 V c t) (blk4 V c t) (blk3 V c t)]
  obtain ⟨-, -, -, -, -, -, -, -, -, -, e0, e1⟩ := idx_facts t
  funext y
  show G V c _ = G V c (((cfg0.win 5).blk t).view.emb y)
  refine congrArg _ ?_
  funext a; apply Fin.ext
  match a with
  | ⟨0, _⟩ => show t.val * 5000 + (y 0).val = win0_5.index t (0 : Fin 2) * 5000 + 1 * (y 0).val; omega
  | ⟨1, _⟩ => show (y 1).val = win0_5.index t (1 : Fin 2) * 64 + 1 * (y 1).val; omega

/-- An index of the output array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v27).slice (win0_5.rect t)).set ↔ _
  rw [View.set_slice_whole, Rect.mem_set_unit]
  exact Iff.rfl

/-- Every row r of the output lies in the block of the point r / 5000, which writes back. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < 20; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After the first region's run, its output array is the layer of the arrays the region was entered with: the scaled
    neighbourhood sums (window 0), the node features (window 1), the two weight matrices (windows 2 and 4) and the
    one-row bias (window 3). -/
theorem region0 (c : Dev nD) :
    ((dat0 (F := Ideal) V c).arrAt 5 cfg0.N : Mat 100000 64)
      = layer z0 (V c main_v25 : Mat 100000 65) (V c main_v13 : Mat 100000 65) (V c main_arg3 : Mat 65 64) (V c main_arg5 : Mat 65 64)
          (fun b => (V c main_v26 : Mat 1 64) (ix2 (0 : Fin 1) b)) :=
  (dat0 (F := Ideal) V c).arrAt_eq_of_cover 5 (G V c) (fun t _ => flushed_eq V c t) cover

end Cert.Sage.K0

end
-- ==== Proof.KRegion1.lean ====
/-
  The second layer's region, with the read-out fused, as one whole-array function.
-/
import proofs.«150396_j11914239279498_1_alg».proof.Proof.Gen.KernelIdeal.Frame
import proofs.«150396_j11914239279498_1_alg».proof.Proof.Sage
import Idealize.ShloMosaic.Lib.Pipeline.Value

set_option maxRecDepth 16384

noncomputable section

namespace Cert.Sage.K1

open Cert.KernelIdeal Cert.KernelIdeal.Gen Idealize.ShloMosaic Idealize.ShloMosaic.TcCoe Idealize.SL.Sem
open Idealize.ShloMosaic.ValueIdx Cert.Dense Cert.Sage
open Idealize.ShloMosaic.Pipeline (Dat)

variable (V : (c : Dev nD) → (b : Ref sig .tc) → Buf (Elt Ideal) ((c : Thread nD τ).loc b))

/-- The word of the rectifier's lower bound. -/
abbrev z0 : Ideal .f32 := Ideal.ofBits .f32 0x00000000#32

/-- The body's arithmetic on its loaded blocks is the read-out of the layer of those blocks: the narrowing conversions
    are the identity over the extended reals, each product into a zero accumulator is the textbook product, the one-row
    bias laid along the rows and the lower bound give the rectified shift, and the one-entry bias laid along the one
    column adds one number to every entry. -/
theorem pay_eq (x0 x1 : Mat 5000 64) (x2 x4 : Mat 64 64) (x3 : Mat 1 64) (x5 : Mat 64 1) (x6 : Mat 1 1) :
    k1_pay1 (F := Ideal) x0 x1 x2 x4 x3 x5 x6
      = readout (layer z0 x0 x1 x2 x4 (fun b => x3 (ix2 (0 : Fin 1) b))) x5 (x6 (ix2 (0 : Fin 1) (0 : Fin 1))) := by
  unfold k1_pay1
  simp only [shapeCast_self]
  -- the two products of the layer
  have e1 : matmul dot_S5000x64_S64x64_S5000x64_1_0_0_1_n_n none (truncf FTy.bf16 x0 bitsLt_bf16_f32)
      (truncf FTy.bf16 x2 bitsLt_bf16_f32) (constant S5000x64 FTy.f32 0#32) = mm x0 x2 :=
    matmul_plain_zero_eq_mm (m := 5000) (k := 64) (n := 64) none (truncf FTy.bf16 x0 bitsLt_bf16_f32) (truncf FTy.bf16 x2 bitsLt_bf16_f32)
  have e2 : matmul dot_S5000x64_S64x64_S5000x64_1_0_0_1_n_n none (truncf FTy.bf16 x1 bitsLt_bf16_f32)
      (truncf FTy.bf16 x4 bitsLt_bf16_f32) (constant S5000x64 FTy.f32 0#32) = mm x1 x4 :=
    matmul_plain_zero_eq_mm (m := 5000) (k := 64) (n := 64) none (truncf FTy.bf16 x1 bitsLt_bf16_f32) (truncf FTy.bf16 x4 bitsLt_bf16_f32)
  rw [e1, e2]
  -- their sum, shifted by the bias along the columns and bounded below: the layer
  have e3 : maximumf (addf (addf (mm x0 x2) (mm x1 x4)) (broadcastTo S5000x64 x3 broadcasts_S1x64_S5000x64))
        (broadcast S5000x64 (FloatOps.ofBits FTy.f32 0#32))
      = layer z0 x0 x1 x2 x4 (fun b => x3 (ix2 (0 : Fin 1) b)) :=
    biasRelu_of_broadcast (m := 5000) (k := 64) (addf (mm x0 x2) (mm x1 x4)) x3 broadcasts_S1x64_S5000x64 0x00000000#32
  rw [e3]
  -- the layer times the read-out column
  have e4 : matmul dot_S5000x64_S64x1_S5000x1_1_0_0_1_n_n none
        (truncf FTy.bf16 (layer z0 x0 x1 x2 x4 (fun b => x3 (ix2 (0 : Fin 1) b))) bitsLt_bf16_f32)
        (truncf FTy.bf16 x5 bitsLt_bf16_f32) (constant S5000x1 FTy.f32 0#32)
      = mm (layer z0 x0 x1 x2 x4 (fun b => x3 (ix2 (0 : Fin 1) b))) x5 :=
    matmul_plain_zero_eq_mm (m := 5000) (k := 64) (n := 1) none
      (truncf FTy.bf16 (layer z0 x0 x1 x2 x4 (fun b => x3 (ix2 (0 : Fin 1) b))) bitsLt_bf16_f32) (truncf FTy.bf16 x5 bitsLt_bf16_f32)
  rw [e4]
  exact plusScalar_of_broadcast (m := 5000) _ x6 broadcasts_S1x1_S5000x1

/-- The index maps, decided over the twenty grid points: the row-tiled windows (the two inputs of 100000 rows and
    the output) sit at block row t and block column 0; every other window's block index is 0 on both axes. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- A grid point's block of 5000 rows lies inside the 100000 rows. -/
theorem rows_le (t : Fin cfg1.N) : t.val * 5000 + 5000 ≤ 100000 := by
  have h : t.val < 20 := t.isLt
  omega

/-- Window 0's block at grid point t is rows 5000·t … 5000·t + 4999 of its array. -/
theorem blk0 (c : Dev nD) (t : Fin cfg1.N) :
    (iblk1 (F := Ideal) V c 0 t : Mat 5000 64) = rowBlock 5000 t.val (rows_le t) (V c main_v39 : Mat 100000 64) := by
  obtain ⟨e0, e1, -⟩ := idx_facts t
  funext y
  show (V c main_v39 : Mat 100000 64) (((cfg1.win 0).blk t).view.emb y) = _
  unfold rowBlock
  congr 1
  funext a; apply Fin.ext
  match a with
  | ⟨0, _⟩ =>
    show win1_0.index t (0 : Fin 2) * 5000 + 1 * (y 0).val = t.val * 5000 + (y 0).val
    omega
  | ⟨1, _⟩ =>
    show win1_0.index t (1 : Fin 2) * 64 + 1 * (y 1).val = (y 1).val
    omega

/-- Window 1's block at grid point t is rows 5000·t … 5000·t + 4999 of its array. -/
theorem blk1 (c : Dev nD) (t : Fin cfg1.N) :
    (iblk1 (F := Ideal) V c 1 t : Mat 5000 64) = rowBlock 5000 t.val (rows_le t) (V c main_v27 : Mat 100000 64) := by
  obtain ⟨-, -, e0, e1, -⟩ := idx_facts t
  funext y
  show (V c main_v27 : Mat 100000 64) (((cfg1.win 1).blk t).view.emb y) = _
  unfold rowBlock
  congr 1
  funext a; apply Fin.ext
  match a with
  | ⟨0, _⟩ =>
    show win1_1.index t (0 : Fin 2) * 5000 + 1 * (y 0).val = t.val * 5000 + (y 0).val
    omega
  | ⟨1, _⟩ =>
    show win1_1.index t (1 : Fin 2) * 64 + 1 * (y 1).val = (y 1).val
    omega

/-- Window 2's block is its whole array (the first weight matrix) at every grid point. -/
theorem blk2 (c : Dev nD) (t : Fin cfg1.N) : (iblk1 (F := Ideal) V c 2 t : Mat 64 64) = (V c main_arg6 : Mat 64 64) := by
  obtain ⟨-, -, -, -, e0, e1, -⟩ := idx_facts t
  funext y
  show (V c main_arg6 : Mat 64 64) (((cfg1.win 2).blk t).view.emb y) = _
  congr 1
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Window 3's block is its whole array (the one-row bias) at every grid point. -/
theorem blk3 (c : Dev nD) (t : Fin cfg1.N) : (iblk1 (F := Ideal) V c 3 t : Mat 1 64) = (V c main_v40 : Mat 1 64) := by
  obtain ⟨-, -, -, -, -, -, e0, e1, -⟩ := idx_facts t
  funext y
  show (V c main_v40 : Mat 1 64) (((cfg1.win 3).blk t).view.emb y) = _
  congr 1
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Window 4's block is its whole array (the second weight matrix) at every grid point. -/
theorem blk4 (c : Dev nD) (t : Fin cfg1.N) : (iblk1 (F := Ideal) V c 4 t : Mat 64 64) = (V c main_arg8 : Mat 64 64) := by
  obtain ⟨-, -, -, -, -, -, -, -, e0, e1, -⟩ := idx_facts t
  funext y
  show (V c main_arg8 : Mat 64 64) (((cfg1.win 4).blk t).view.emb y) = _
  congr 1
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Window 5's block is its whole array (the read-out column) at every grid point. -/
theorem blk5 (c : Dev nD) (t : Fin cfg1.N) : (iblk1 (F := Ideal) V c 5 t : Mat 64 1) = (V c main_arg9 : Mat 64 1) := by
  obtain ⟨-, -, -, -, -, -, -, -, -, -, e0, e1, -⟩ := idx_facts t
  funext y
  show (V c main_arg9 : Mat 64 1) (((cfg1.win 5).blk t).view.emb y) = _
  congr 1
  funext a; apply Fin.ext
  match a with
  | ⟨0, _⟩ => show win1_5.index t (0 : Fin 2) * 64 + 1 * (y 0).val = (y 0).val; omega
  | ⟨1, _⟩ => show win1_5.index t (1 : Fin 2) * 1 + 1 * (y 1).val = (y 1).val; omega

/-- Window 6's block is its whole array (the one-entry bias) at every grid point. -/
theorem blk6 (c : Dev nD) (t : Fin cfg1.N) : (iblk1 (F := Ideal) V c 6 t : Mat 1 1) = (V c main_v41 : Mat 1 1) := by
  obtain ⟨-, -, -, -, -, -, -, -, -, -, -, -, e0, e1, -⟩ := idx_facts t
  funext y
  show (V c main_v41 : Mat 1 1) (((cfg1.win 6).blk t).view.emb y) = _
  congr 1
  funext a; apply Fin.ext
  match a with
  | ⟨0, _⟩ => show win1_6.index t (0 : Fin 2) * 1 + 1 * (y 0).val = (y 0).val; omega
  | ⟨1, _⟩ => show win1_6.index t (1 : Fin 2) * 1 + 1 * (y 1).val = (y 1).val; omega

/-- The zero offsets of a whole-buffer access, however spelt. -/
theorem hz : (![0, 0] : Fin 2 → Nat) = fun _ => 0 := funext fun a => by fin_cases a <;> rfl

/-- The whole-array function the output window's array ends holding. -/
abbrev G (c : Dev nD) : Mat 100000 1 :=
  readout (layer z0 (V c main_v39 : Mat 100000 64) (V c main_v27 : Mat 100000 64) (V c main_arg6 : Mat 64 64) (V c main_arg8 : Mat 64 64)
      (fun b => (V c main_v40 : Mat 1 64) (ix2 (0 : Fin 1) b)))
    (V c main_arg9 : Mat 64 1) ((V c main_v41 : Mat 1 1) (ix2 (0 : Fin 1) (0 : Fin 1)))

/-- What grid point t writes back is block t of the whole-array function: the body's arithmetic is the read-out of the
    layer of its blocks, the row-tiled inputs' blocks are blocks of rows and the others the whole arrays, and the layer and
    the read-out of a block of rows are that block of rows of the layer and read-out of the whole arrays. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  rw [pay_eq, blk0 V c t, blk1 V c t, blk2 V c t, blk3 V c t, blk4 V c t, blk5 V c t, blk6 V c t,
    layer_rowBlock, readout_rowBlock]
  obtain ⟨-, -, -, -, -, -, -, -, -, -, -, -, -, -, e0, e1⟩ := idx_facts t
  funext y
  -- the block's entry (y 0, y 1) sits in the array at row 5000·t + y 0, column y 1
  show rowBlock 5000 t.val (rows_le t) (G V c) y = G V c (((cfg1.win 7).blk t).view.emb y)
  unfold rowBlock
  congr 1
  funext a; apply Fin.ext
  match a with
  | ⟨0, _⟩ =>
    show t.val * 5000 + (y 0).val = win1_7.index t (0 : Fin 2) * 5000 + 1 * (y 0).val
    omega
  | ⟨1, _⟩ =>
    show (y 1).val = win1_7.index t (1 : Fin 2) * 1 + 1 * (y 1).val
    omega

/-- An index of the output array is in grid point t's block iff each coordinate is in the block's range on its axis. -/
theorem mem_blk (t : Fin cfg1.N) (i : S100000x1.Idx) :
    i ∈ ((cfg1.win 7).blk t).view.set
      ↔ ∀ a : Fin 2, win1_7.index t a * S5000x1.size a ≤ (i a).val ∧ (i a).val < win1_7.index t a * S5000x1.size a + S5000x1.size a := by
  show i ∈ ((View.whole main_v42).slice (win1_7.rect t)).set ↔ _
  rw [View.set_slice_whole, Rect.mem_set_unit]
  exact Iff.rfl

/-- Every row r of the output array lies in the block of grid point r / 5000, which is written back. -/
theorem cover (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have ht : (i 0).val / 5000 < cfg1.N := by show _ < 20; omega
  obtain ⟨-, -, -, -, -, -, -, -, -, -, -, -, -, -, e0, e1⟩ := idx_facts ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    have e0' : win1_7.index ⟨(i 0).val / 5000, ht⟩ (0 : Fin 2) = (i 0).val / 5000 := e0
    omega
  | ⟨1, _⟩ =>
    show win1_7.index ⟨(i 0).val / 5000, ht⟩ (1 : Fin 2) * 1 ≤ (i 1).val
      ∧ (i 1).val < win1_7.index ⟨(i 0).val / 5000, ht⟩ (1 : Fin 2) * 1 + 1
    omega

/-- After the second region's run, its output array is the read-out of the layer of the arrays the region was entered
    with: the scaled neighbourhood sums (window 0), the first layer's output (window 1), the two weight matrices
    (windows 2 and 4), the one-row bias (window 3), the read-out column (window 5) and its one-entry bias (window 6). -/
theorem region1 (c : Dev nD) :
    ((dat1 (F := Ideal) V c).arrAt 7 cfg1.N : Mat 100000 1)
      = readout (layer z0 (V c main_v39 : Mat 100000 64) (V c main_v27 : Mat 100000 64) (V c main_arg6 : Mat 64 64) (V c main_arg8 : Mat 64 64)
          (fun b => (V c main_v40 : Mat 1 64) (ix2 (0 : Fin 1) b)))
          (V c main_arg9 : Mat 64 1) ((V c main_v41 : Mat 1 1) (ix2 (0 : Fin 1) (0 : Fin 1))) := by
  exact (dat1 (F := Ideal) V c).arrAt_eq_of_cover 7 (G V c) (fun t _ => flushed_eq V c t) cover

end Cert.Sage.K1

end
-- ==== Proof.KValue.lean ====
/-
  The idealized kernel program's result as ONE function of its eleven arguments.

  The graph side is the same in both layers: the edge list's two rows are the edges' sources and targets; a node's
  degree is the number of edges that target it; the neighbourhood sum of a feature matrix adds, for every edge, the
  source's row at the target's row. `hidden` is the first layer of the appended features, `result` the read-out of
  the second layer of `hidden`, each layer fed the neighbourhood sums divided by the larger of the degree and one.

  The program computes the same thing in two pallas_call regions among host operations: the host scales the
  neighbourhood sums by 1 / max degree 1 (the same as dividing: the divisor is at least one), each region computes a
  layer block of rows by block of rows (the whole layer, since a layer acts row by row), and the second region also
  does the read-out. Reading the buffers back through the fold of contents at the segment boundaries gives `result`.
-/
import proofs.«150396_j11914239279498_1_alg».proof.Proof.Gen.KernelIdeal.Frame
import proofs.«150396_j11914239279498_1_alg».proof.Proof.Sage
import proofs.«150396_j11914239279498_1_alg».proof.Proof.HostLayers
import proofs.«150396_j11914239279498_1_alg».proof.Proof.KRegion0
import proofs.«150396_j11914239279498_1_alg».proof.Proof.KRegion1
import Idealize.ShloMosaic.Lib.StableHlo.Run

set_option maxRecDepth 16384

noncomputable section

namespace Cert.Sage.KVal

open Cert.KernelIdeal Cert.KernelIdeal.Gen Idealize.ShloMosaic Idealize.ShloMosaic.TcCoe Idealize.SL.Sem Idealize.ShloMosaic.StableHlo
open Idealize.ShloMosaic.ValueIdx Cert.Dense Cert.Sage

/-! ## The graph side, shared by both layers: edge endpoints, degrees, neighbourhood sums -/

/-- One row of 3200000 node numbers. -/
abbrev Row := (⟨S3200000, .i32⟩ : BufTy).Contents (Elt Ideal)
/-- The edge list: two rows of node numbers. -/
abbrev Edges := (⟨S2x3200000, .i32⟩ : BufTy).Contents (Elt Ideal)

/-- Row 0 of the edge list: each edge's source node. -/
abbrev srcRow (e : Edges) : Row :=
  shapeCast S3200000 (extractStridedSlice S1x3200000 ![0, 0] e slices_S2x3200000_S1x3200000_0_0) shapeCasts_S1x3200000_S3200000
/-- Row 1 of the edge list: each edge's target node. -/
abbrev dstRow (e : Edges) : Row :=
  shapeCast S3200000 (extractStridedSlice S1x3200000 ![1, 0] e slices_S2x3200000_S1x3200000_1_0) shapeCasts_S1x3200000_S3200000
/-- The gather's index column: a negative source counts from the end (100000 is added to it). -/
abbrev srcIdx (s : Row) : (⟨S3200000x1, .i32⟩ : BufTy).Contents (Elt Ideal) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)
/-- The scatter's index column: the targets as they are. -/
abbrev dstIdx (d : Row) : (⟨S3200000x1, .i32⟩ : BufTy).Contents (Elt Ideal) :=
  broadcastInDim S3200000x1 ![0] bcast_S3200000_S3200000x1_0 d
/-- The number one at every node. -/
abbrev ones : FVec Ideal S100000 .f32 := broadcastInDim S100000 ![] bcast_S_S100000 (constant S_ .f32 0x3F800000#32)
/-- Each node's in-degree: a one added at its target for every edge. -/
abbrev degree (d : Row) : FVec Ideal S100000 .f32 :=
  Host.scatterAdd scatter_S100000_S3200000x1_S3200000_n_0_0_1 (broadcastInDim S100000 ![] bcast_S_S100000 (constant S_ .f32 0x00000000#32))
    (dstIdx d) (broadcastInDim S3200000 ![] bcast_S_S3200000 (constant S_ .f32 0x3F800000#32))
/-- The node features with the extra column appended. -/
abbrev feats (x : FVec Ideal S100000x64 .f32) (tau : FVec Ideal S100000x1 .f32) : FVec Ideal S100000x65 .f32 :=
  concatenate S100000x65 1 [⟨S100000x64, x⟩, ⟨S100000x1, tau⟩] concatenates_S100000x64_S100000x1_S100000x65_d1
/-- Neighbourhood sums of 65-column features: each edge's source row added at its target. -/
abbrev agg65 (s d : Row) (h : FVec Ideal S100000x65 .f32) : FVec Ideal S100000x65 .f32 :=
  Host.scatterAdd scatter_S100000x65_S3200000x1_S3200000x65_1_0_0_1 (broadcastInDim S100000x65 ![] bcast_S_S100000x65 (constant S_ .f32 0x00000000#32))
    (dstIdx d) (Host.gather gather_S100000x65_S3200000x1_S3200000x65_1_0_n_n_0_1_165 h (srcIdx s))
/-- Neighbourhood sums of 64-column features. -/
abbrev agg64 (s d : Row) (h : FVec Ideal S100000x64 .f32) : FVec Ideal S100000x64 .f32 :=
  Host.scatterAdd scatter_S100000x64_S3200000x1_S3200000x64_1_0_0_1 (broadcastInDim S100000x64 ![] bcast_S_S100000x64 (constant S_ .f32 0x00000000#32))
    (dstIdx d) (Host.gather gather_S100000x64_S3200000x1_S3200000x64_1_0_n_n_0_1_164 h (srcIdx s))
/-- One over the larger of the degree and one, as a column. -/
abbrev invDeg (d : Row) : FVec Ideal S100000x1 .f32 :=
  broadcastInDim S100000x1 ![0] bcast_S100000_S100000x1_0 (Host.divf ones (maximumf (degree d) ones))
/-- The larger of the degree and one, as a column. -/
abbrev clampDeg (d : Row) : FVec Ideal S100000x1 .f32 :=
  broadcastInDim S100000x1 ![0] bcast_S100000_S100000x1_0 (maximumf (degree d) ones)

/-- The word of the rectifier's lower bound. -/
abbrev zw : Ideal .f32 := Ideal.ofBits .f32 0x00000000#32

/-! ## The whole program as one function -/

/-- The first layer of the appended features. -/
def hidden (x : FVec Ideal S100000x64 .f32) (e : Edges) (tau : FVec Ideal S100000x1 .f32)
    (W1l : FVec Ideal S65x64 .f32) (b1l : FVec Ideal S64 .f32) (W1r : FVec Ideal S65x64 .f32) : Mat 100000 64 :=
  layer zw (Host.divf (agg65 (srcRow e) (dstRow e) (feats x tau)) (broadcastInDim S100000x65 ![0, 1] bcast_S100000x1_S100000x65_0_1 (clampDeg (dstRow e))))
    (feats x tau) W1l W1r (fun b => b1l (ix1 b))

/-- The read-out of the second layer of the first layer's output. -/
def result (x : FVec Ideal S100000x64 .f32) (e : Edges) (tau : FVec Ideal S100000x1 .f32)
    (W1l : FVec Ideal S65x64 .f32) (b1l : FVec Ideal S64 .f32) (W1r : FVec Ideal S65x64 .f32)
    (W2l : FVec Ideal S64x64 .f32) (b2l : FVec Ideal S64 .f32) (W2r : FVec Ideal S64x64 .f32)
    (Wfc : FVec Ideal S64x1 .f32) (bfc : FVec Ideal S1 .f32) : Mat 100000 1 :=
  readout (layer zw (Host.divf (agg64 (srcRow e) (dstRow e) (hidden x e tau W1l b1l W1r))
        (broadcastInDim S100000x64 ![0, 1] bcast_S100000x1_S100000x64_0_1 (clampDeg (dstRow e))))
      (hidden x e tau W1l b1l W1r) W2l W2r (fun b => b2l (ix1 b)))
    Wfc (bfc (ix1 (0 : Fin 1)))

variable (m : (ℓ : Loc nD τ sig) → Buf (Elt Ideal) ℓ) (ρ : Dev nD → PrngReg)

/-! ## What the first region is entered with: the first stretch of host operations read back -/

set_option maxHeartbeats 4000000 in
theorem V1_v25 (c : Dev nD) : (V1 m ρ c main_v25 : FVec Ideal S100000x65 .f32)
    = mulf (agg65 (srcRow (m ((c.tc : Thread nD τ).loc main_arg1))) (dstRow (m ((c.tc : Thread nD τ).loc main_arg1))) (feats (m ((c.tc : Thread nD τ).loc main_arg0)) (m ((c.tc : Thread nD τ).loc main_arg2))))
        (broadcastInDim S100000x65 ![0, 1] bcast_S100000x1_S100000x65_0_1 (invDeg (dstRow (m ((c.tc : Thread nD τ).loc main_arg1))))) := by
  dsimp only [V1, W1, hostOps0]
  after_results_simp
  rfl

set_option maxHeartbeats 4000000 in
theorem V1_v13 (c : Dev nD) : (V1 m ρ c main_v13 : FVec Ideal S100000x65 .f32) = feats (m ((c.tc : Thread nD τ).loc main_arg0)) (m ((c.tc : Thread nD τ).loc main_arg2)) := by
  dsimp only [V1, W1, hostOps0]
  after_results_simp
  rfl

set_option maxHeartbeats 4000000 in
theorem V1_v26 (c : Dev nD) : (V1 m ρ c main_v26 : FVec Ideal S1x64 .f32) = shapeCast S1x64 (m ((c.tc : Thread nD τ).loc main_arg4)) shapeCasts_S64_S1x64 := by
  dsimp only [V1, W1, hostOps0]
  after_results_simp
  rfl

theorem V1_arg3 (c : Dev nD) : V1 m ρ c main_arg3 = (m ((c.tc : Thread nD τ).loc main_arg3)) := by
  dsimp only [V1, W1, hostOps0]
  after_results

theorem V1_arg5 (c : Dev nD) : V1 m ρ c main_arg5 = (m ((c.tc : Thread nD τ).loc main_arg5)) := by
  dsimp only [V1, W1, hostOps0]
  after_results

/-- After the first region its output array holds `hidden` of the arguments. -/
theorem hidden_eq (c : Dev nD) :
    ((dat0 (V1 m ρ) c).arrAt 5 cfg0.N : Mat 100000 64) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (K0.region0 (V1 m ρ) c).trans ?_
  rw [V1_v25, V1_v13, V1_arg3, V1_arg5, V1_v26]
  unfold hidden
  rw [Host.scale_eq (h0'' := bcast_S_S100000)]
  simp only [shapeCast_row_apply]

/-! ## What the second region is entered with: the buffers the second stretch reads, and the stretch read back -/

set_option maxHeartbeats 4000000 in
theorem W2_v1 (c : Dev nD) : (W2 m ρ c (Proc.devRef .tc main_v1) : Row) = srcRow (m ((c.tc : Thread nD τ).loc main_arg1)) := by
  rw [W2_of_ne m ρ c main_v1 (by decide)]
  show StableHlo.after hostOps0 (W0 m ρ c) (Proc.devRef .tc main_v1) = _
  dsimp only [hostOps0]
  after_results_simp
  rfl

set_option maxHeartbeats 4000000 in
theorem W2_v3 (c : Dev nD) : (W2 m ρ c (Proc.devRef .tc main_v3) : Row) = dstRow (m ((c.tc : Thread nD τ).loc main_arg1)) := by
  rw [W2_of_ne m ρ c main_v3 (by decide)]
  show StableHlo.after hostOps0 (W0 m ρ c) (Proc.devRef .tc main_v3) = _
  dsimp only [hostOps0]
  after_results_simp
  rfl

set_option maxHeartbeats 4000000 in
theorem W2_v12 (c : Dev nD) : (W2 m ρ c (Proc.devRef .tc main_v12) : FVec Ideal S100000x1 .f32) = invDeg (dstRow (m ((c.tc : Thread nD τ).loc main_arg1))) := by
  rw [W2_of_ne m ρ c main_v12 (by decide)]
  show StableHlo.after hostOps0 (W0 m ρ c) (Proc.devRef .tc main_v12) = _
  dsimp only [hostOps0]
  after_results_simp
  rfl

theorem W2_v27 (c : Dev nD) : W2 m ρ c (Proc.devRef .tc main_v27) = (dat0 (V1 m ρ) c).arrAt 5 cfg0.N :=
  W2_arr m ρ c 5

/-- A buffer neither region-0 array nor written by the first stretch still holds its launch contents after region 0. -/
theorem W2_arg (c : Dev nD) (b : Ref sig .tc) (hb : ∀ w, Pipeline.arrRef spec0 w ≠ b)
    (h0 : StableHlo.after hostOps0 (W0 m ρ c) (Proc.devRef .tc b) = m ((c.tc : Thread nD τ).loc b)) :
    W2 m ρ c (Proc.devRef .tc b) = m ((c.tc : Thread nD τ).loc b) :=
  (W2_of_ne m ρ c b hb).trans h0

theorem W2_arg6 (c : Dev nD) : W2 m ρ c (Proc.devRef .tc main_arg6) = (m ((c.tc : Thread nD τ).loc main_arg6)) :=
  W2_arg m ρ c main_arg6 (by decide) (by dsimp only [hostOps0]; after_results)
theorem W2_arg7 (c : Dev nD) : W2 m ρ c (Proc.devRef .tc main_arg7) = (m ((c.tc : Thread nD τ).loc main_arg7)) :=
  W2_arg m ρ c main_arg7 (by decide) (by dsimp only [hostOps0]; after_results)
theorem W2_arg8 (c : Dev nD) : W2 m ρ c (Proc.devRef .tc main_arg8) = (m ((c.tc : Thread nD τ).loc main_arg8)) :=
  W2_arg m ρ c main_arg8 (by decide) (by dsimp only [hostOps0]; after_results)
theorem W2_arg9 (c : Dev nD) : W2 m ρ c (Proc.devRef .tc main_arg9) = (m ((c.tc : Thread nD τ).loc main_arg9)) :=
  W2_arg m ρ c main_arg9 (by decide) (by dsimp only [hostOps0]; after_results)
theorem W2_arg10 (c : Dev nD) : W2 m ρ c (Proc.devRef .tc main_arg10) = (m ((c.tc : Thread nD τ).loc main_arg10)) :=
  W2_arg m ρ c main_arg10 (by decide) (by dsimp only [hostOps0]; after_results)

set_option maxHeartbeats 4000000 in
theorem V3_v39 (c : Dev nD) : (V3 m ρ c main_v39 : FVec Ideal S100000x64 .f32)
    = mulf (agg64 (W2 m ρ c (Proc.devRef .tc main_v1)) (W2 m ρ c (Proc.devRef .tc main_v3)) (W2 m ρ c (Proc.devRef .tc main_v27)))
        (broadcastInDim S100000x64 ![0, 1] bcast_S100000x1_S100000x64_0_1 (W2 m ρ c (Proc.devRef .tc main_v12))) := by
  dsimp only [V3, W3, hostOps1]
  after_results_simp

theorem V3_v27 (c : Dev nD) : V3 m ρ c main_v27 = W2 m ρ c (Proc.devRef .tc main_v27) := by
  dsimp only [V3, W3, hostOps1]
  after_results

theorem V3_arg6 (c : Dev nD) : V3 m ρ c main_arg6 = (m ((c.tc : Thread nD τ).loc main_arg6)) := by
  refine Eq.trans ?_ (W2_arg6 m ρ c)
  dsimp only [V3, W3, hostOps1]
  after_results
theorem V3_arg8 (c : Dev nD) : V3 m ρ c main_arg8 = (m ((c.tc : Thread nD τ).loc main_arg8)) := by
  refine Eq.trans ?_ (W2_arg8 m ρ c)
  dsimp only [V3, W3, hostOps1]
  after_results
theorem V3_arg9 (c : Dev nD) : V3 m ρ c main_arg9 = (m ((c.tc : Thread nD τ).loc main_arg9)) := by
  refine Eq.trans ?_ (W2_arg9 m ρ c)
  dsimp only [V3, W3, hostOps1]
  after_results

set_option maxHeartbeats 4000000 in
theorem V3_v40 (c : Dev nD) : (V3 m ρ c main_v40 : FVec Ideal S1x64 .f32) = shapeCast S1x64 (m ((c.tc : Thread nD τ).loc main_arg7)) shapeCasts_S64_S1x64 := by
  rw [← W2_arg7 m ρ c]
  dsimp only [V3, W3, hostOps1]
  after_results_simp
  rfl

set_option maxHeartbeats 4000000 in
theorem V3_v41 (c : Dev nD) : (V3 m ρ c main_v41 : FVec Ideal S1x1 .f32) = shapeCast S1x1 (m ((c.tc : Thread nD τ).loc main_arg10)) shapeCasts_S1_S1x1 := by
  rw [← W2_arg10 m ρ c]
  dsimp only [V3, W3, hostOps1]
  after_results_simp
  rfl

/-! ## The result buffer after the run -/

/-- The last boundary's contents at the result buffer: `result` of the arguments as launched. -/
theorem result_eq (c : Dev nD) :
    (W4 m ρ c (Proc.devRef .tc main_v42) : Mat 100000 1)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have h7 : W4 m ρ c (Proc.devRef .tc main_v42) = (dat1 (V3 m ρ) c).arrAt 7 cfg1.N := W4_arr m ρ c 7
  refine h7.trans ((K1.region1 (V3 m ρ) c).trans ?_)
  rw [V3_v39, V3_v27, V3_arg6, V3_arg8, V3_arg9, V3_v40, V3_v41, W2_v1, W2_v3, W2_v12, W2_v27, hidden_eq]
  unfold result
  rw [Host.scale_eq (h0'' := bcast_S_S100000)]
  simp only [shapeCast_row_apply]

end Cert.Sage.KVal

end
-- ==== Proof.RValue.lean ====
/-
  The idealized reference program's result is the same function `result` of its eleven arguments.

  The reference computes, on the host, each layer as (mean · Wl + bias) + h · Wr bounded below by zero, with the mean the
  neighbourhood sums DIVIDED by the larger of the degree and one, and then the read-out h · Wfc + bfc. Its run's composed
  term is read layer by layer; what is left is the same graph-side term the kernel program's host operations build.
-/
import proofs.«150396_j11914239279498_1_alg».proof.Proof.Gen.ReferenceIdeal.Run
import proofs.«150396_j11914239279498_1_alg».proof.Proof.KValue

set_option maxRecDepth 16384

noncomputable section

namespace Cert.Sage.RVal

open Cert.ReferenceIdeal Cert.ReferenceIdeal.Gen Cert.ReferenceIdeal.Value
open Idealize.ShloMosaic Idealize.ShloMosaic.TcCoe Idealize.SL.Sem
open Idealize.ShloMosaic.ValueIdx Cert.Dense Cert.Sage

/-- The three products of the reference are plain matrix products. -/
theorem dot1_plain : dot_S100000x65_S65x64_S100000x64_1_0_0_1_n_n = DotDims.plain 100000 65 64 := rfl
theorem dot2_plain : dot_S100000x64_S64x64_S100000x64_1_0_0_1_n_n = DotDims.plain 100000 64 64 := rfl
theorem dot3_plain : dot_S100000x64_S64x1_S100000x1_1_0_0_1_n_n = DotDims.plain 100000 64 1 := rfl

set_option maxHeartbeats 4000000 in
/-- The reference run's result term is `result` of the arguments. -/
theorem ref_eq (m : (ℓ : Loc nD τ sig) → Buf (Elt Ideal) ℓ) (c : Dev nD) :
    (res_main_v60 (F := Ideal) m c : Mat 100000 1)
      = KVal.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v60
  rw [dot1_plain, dot2_plain, dot3_plain]
  rw [Host.readout_eq, Host.layer_eq, Host.layer_eq]
  rfl

end Cert.Sage.RVal

end
-- ==== Proof.lean ====
/-
  Two mean-aggregating graph layers and a linear read-out over 100000 nodes and 3200000 edges: the kernel program against
  its reference, at the exact arithmetic of the extended reals.

  Both programs gather each edge's source features, add them at the edge's target, and scale by the target's degree
  (bounded below by one); both then compute relu(mean · Wl + bias + h · Wr) twice and finish with h · Wfc + bfc. They
  differ in three ways, none of which changes an extended real:
  * the kernel program multiplies the neighbourhood sums by 1 / max degree 1 where the reference divides by
    max degree 1 — the divisor is at least one, so it is never zero, and then x · (1 / d) = x / d (also for an
    infinite d, where both are x · 0); no finiteness of the inputs is used;
  * the kernel adds the bias after the second product, the reference before it — addition of extended reals is
    commutative and associative;
  * the kernel computes each layer (and the read-out, fused into the second) block of 5000 rows by block in a
    pallas_call region, rounding its operands to bf16 first — a change of format is the identity here, a layer acts
    row by row, and the twenty blocks cover the rows, so each region's output array is the whole layer.
  So both results are the one function `Cert.Sage.KVal.result` of the eleven arguments.

  The three frames: the two kernel programs' are the generated frame certificates; the reference's is its generated
  run with the result dropped. The idealization rewrote no operation, so `preserves` is `True`.
-/
import proofs.«150396_j11914239279498_1_alg».proof.Defs
import proofs.«150396_j11914239279498_1_alg».proof.Proof.Gen.Kernel
import proofs.«150396_j11914239279498_1_alg».proof.Proof.Gen.Kernel.Skeleton
import proofs.«150396_j11914239279498_1_alg».proof.Proof.Gen.Kernel.Launch
import proofs.«150396_j11914239279498_1_alg».proof.Proof.Gen.Kernel.Points
import proofs.«150396_j11914239279498_1_alg».proof.Proof.Gen.Kernel.Frame
import proofs.«150396_j11914239279498_1_alg».proof.Proof.Gen.KernelIdeal
import proofs.«150396_j11914239279498_1_alg».proof.Proof.Gen.KernelIdeal.Skeleton
import proofs.«150396_j11914239279498_1_alg».proof.Proof.Gen.KernelIdeal.Launch
import proofs.«150396_j11914239279498_1_alg».proof.Proof.Gen.KernelIdeal.Points
import proofs.«150396_j11914239279498_1_alg».proof.Proof.Gen.KernelIdeal.Frame
import proofs.«150396_j11914239279498_1_alg».proof.Proof.Gen.ReferenceIdeal
import proofs.«150396_j11914239279498_1_alg».proof.Proof.Gen.ReferenceIdeal.Run
import proofs.«150396_j11914239279498_1_alg».proof.Proof.Gen.Pre_finite_inputs
import proofs.«150396_j11914239279498_1_alg».proof.Proof.KernelRun
import proofs.«150396_j11914239279498_1_alg».proof.Proof.KValue
import proofs.«150396_j11914239279498_1_alg».proof.Proof.RValue
import Idealize.ShloMosaic.Adequacy
import Idealize.ShloMosaic.Init

noncomputable section

namespace Cert.Proof

open Idealize.ShloMosaic Idealize.SL.Sem

/-- The word-level kernel program runs and keeps its arguments: the generated frame certificate. -/
theorem frame_kernel : Cert.frame_Kernel := fun m ρ _ => Cert.Kernel.Gen.frame m ρ

/-- The idealized kernel program runs and keeps its arguments: the generated frame certificate. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with their result at `result` of the (agreeing) arguments. -/
theorem algebraic : Cert.algebraic_KernelIdeal_ReferenceIdeal := by
  intro m ρ m' ρ' _ hagree
  refine ⟨fun c => Cert.Sage.KVal.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Sage.KVal.result_eq m ρ c), (h c).2⟩) (Cert.Sage.KRun.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.Sage.RVal.ref_eq m' c, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
